-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32768 : Shape := ⟨1, ![32768]⟩
abbrev S2048 : Shape := ⟨1, ![2048]⟩
abbrev S8192 : Shape := ⟨1, ![8192]⟩
abbrev S512 : Shape := ⟨1, ![512]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32768 : S_.BroadcastsInDim S32768 (![] : Fin 0 → Fin S32768.rank)
  reducesTo_S32768_S_d0 : S32768.ReducesTo [0] S_
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_v44 : IVec S_ 1) (main_v49 : IVec S8192 1) (main_c_19 : IVec S_ 1) : IVec S_ 1 :=
  let main_v50 : IVec S_ 1 := (fun x v => Host.reduce IntOp.andi x v reducesTo_S8192_S_d0 h_S_) main_v49 main_c_19
  let main_v51 : IVec S_ 1 := andi main_v44 main_v50
  main_v51

def fn_part2 {F : FTy → Type} [FloatOps F] (main_arg6 : IVec S32768 32) (main_arg7 : IVec S8192 32) (main_arg8 : IVec S8192 32) (main_v30 : IVec S_ 1) (main_v32 : IVec S32768 1) (main_c_12 : IVec S_ 32) : IVec S_ 1 :=
  let main_v33 : IVec S32768 32 := broadcastInDim S32768 ![] bcast_S_S32768 main_c_12
  let main_v34 : IVec S32768 1 := cmpi .slt main_arg6 main_v33
  let main_v35 : IVec S32768 1 := andi main_v32 main_v34
  let main_c_13 : IVec S_ 1 := constantI S_ 1 1#1
  let main_v36 : IVec S_ 1 := (fun x v => Host.reduce IntOp.andi x v reducesTo_S32768_S_d0 h_S_) main_v35 main_c_13
  let main_v37 : IVec S_ 1 := andi main_v30 main_v36
  let main_c_14 : IVec S_ 32 := constantI S_ 32 0#32
  let main_v38 : IVec S8192 32 := broadcastInDim S8192 ![] bcast_S_S8192 main_c_14
  let main_v39 : IVec S8192 1 := cmpi .sge main_arg7 main_v38
  let main_c_15 : IVec S_ 32 := constantI S_ 32 512#32
  let main_v40 : IVec S8192 32 := broadcastInDim S8192 ![] bcast_S_S8192 main_c_15
  let main_v41 : IVec S8192 1 := cmpi .slt main_arg7 main_v40
  let main_v42 : IVec S8192 1 := andi main_v39 main_v41
  let main_c_16 : IVec S_ 1 := constantI S_ 1 1#1
  let main_v43 : IVec S_ 1 := (fun x v => Host.reduce IntOp.andi x v reducesTo_S8192_S_d0 h_S_) main_v42 main_c_16
  let main_v44 : IVec S_ 1 := andi main_v37 main_v43
  let main_c_17 : IVec S_ 32 := constantI S_ 32 0#32
  let main_v45 : IVec S8192 32 := broadcastInDim S8192 ![] bcast_S_S8192 main_c_17
  let main_v46 : IVec S8192 1 := cmpi .sge main_arg8 main_v45
  let main_c_18 : IVec S_ 32 := constantI S_ 32 2048#32
  let main_v47 : IVec S8192 32 := broadcastInDim S8192 ![] bcast_S_S8192 main_c_18
  let main_v48 : IVec S8192 1 := cmpi .slt main_arg8 main_v47
  let main_v49 : IVec S8192 1 := andi main_v46 main_v48
  let main_c_19 : IVec S_ 1 := constantI S_ 1 1#1
  fn_part3 (F := F) main_v44 main_v49 main_c_19

def fn_part1 {F : FTy → Type} [FloatOps F] (main_arg4 : FVec F S512 .f32) (main_arg5 : IVec S32768 32) (main_arg6 : IVec S32768 32) (main_arg7 : IVec S8192 32) (main_arg8 : IVec S8192 32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S32768 32 := broadcastInDim S32768 ![] bcast_S_S32768 main_c_8
  let main_v25 : IVec S32768 1 := cmpi .sge main_arg5 main_v24
  let main_c_9 : IVec S_ 32 := constantI S_ 32 2048#32
  let main_v26 : IVec S32768 32 := broadcastInDim S32768 ![] bcast_S_S32768 main_c_9
  let main_v27 : IVec S32768 1 := cmpi .slt main_arg5 main_v26
  let main_v28 : IVec S32768 1 := andi main_v25 main_v27
  let main_c_10 : IVec S_ 1 := constantI S_ 1 1#1
  let main_v29 : IVec S_ 1 := (fun x v => Host.reduce IntOp.andi x v reducesTo_S32768_S_d0 h_S_) main_v28 main_c_10
  let main_v30 : IVec S_ 1 := andi main_v23 main_v29
  let main_c_11 : IVec S_ 32 := constantI S_ 32 0#32
  let main_v31 : IVec S32768 32 := broadcastInDim S32768 ![] bcast_S_S32768 main_c_11
  let main_v32 : IVec S32768 1 := cmpi .sge main_arg6 main_v31
  let main_c_12 : IVec S_ 32 := constantI S_ 32 4096#32
  fn_part2 (F := F) main_arg6 main_arg7 main_arg8 main_v30 main_v32 main_c_12

def fn {F : FTy → Type} [FloatOps F] (main_arg0 : FVec F S8192x4096 .f32) (main_arg1 : FVec F S32768 .f32) (main_arg2 : FVec F S2048 .f32) (main_arg3 : FVec F S8192 .f32) (main_arg4 : FVec F S512 .f32) (main_arg5 : IVec S32768 32) (main_arg6 : IVec S32768 32) (main_arg7 : IVec S8192 32) (main_arg8 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_v13 main_v16
-- ==== Kernel.lean ====
abbrev S8192x4096 : Shape := ⟨2, ![8192, 4096]⟩
abbrev S32768 : Shape := ⟨1, ![32768]⟩
abbrev S2048 : Shape := ⟨1, ![2048]⟩
abbrev S8192 : Shape := ⟨1, ![8192]⟩
abbrev S512 : Shape := ⟨1, ![512]⟩
abbrev S_ : Shape := ⟨0, ![]⟩
abbrev S8388608 : Shape := ⟨1, ![8388608]⟩
abbrev S32768x1 : Shape := ⟨2, ![32768, 1]⟩
abbrev S4096x2048 : Shape := ⟨2, ![4096, 2048]⟩
abbrev S1048576 : Shape := ⟨1, ![1048576]⟩
abbrev S8192x1 : Shape := ⟨2, ![8192, 1]⟩
abbrev S2048x512 : Shape := ⟨2, ![2048, 512]⟩
abbrev S1x2048 : Shape := ⟨2, ![1, 2048]⟩
abbrev S1x512 : Shape := ⟨2, ![1, 512]⟩
abbrev S8192x512 : Shape := ⟨2, ![8192, 512]⟩
abbrev S512x4096 : Shape := ⟨2, ![512, 4096]⟩
abbrev S512x512 : Shape := ⟨2, ![512, 512]⟩
abbrev S512x2048 : Shape := ⟨2, ![512, 2048]⟩

abbrev nBuf : Space → Nat
  | .hbm => 32
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S32768, .f32⟩
  | .hbm, ⟨2, _⟩ => ⟨S2048, .f32⟩
  | .hbm, ⟨3, _⟩ => ⟨S8192, .f32⟩
  | .hbm, ⟨4, _⟩ => ⟨S512, .f32⟩
  | .hbm, ⟨5, _⟩ => ⟨S32768, .i32⟩
  | .hbm, ⟨6, _⟩ => ⟨S32768, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S_, .f32⟩
  | .hbm, ⟨14, _⟩ => ⟨S8388608, .f32⟩
  | .hbm, ⟨15, _⟩ => ⟨S32768x1, .i32⟩
  | .hbm, ⟨16, _⟩ => ⟨S8388608, .f32⟩
  | .hbm, ⟨17, _⟩ => ⟨S4096x2048, .f32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .f32⟩
  | .hbm, ⟨23, _⟩ => ⟨S1048576, .f32⟩
  | .hbm, ⟨24, _⟩ => ⟨S8192x1, .i32⟩
  | .hbm, ⟨25, _⟩ => ⟨S1048576, .f32⟩
  | .hbm, ⟨26, _⟩ => ⟨S2048x512, .f32⟩
  | .hbm, ⟨27, _⟩ => ⟨S4096x2048, .bf16⟩
  | .hbm, ⟨28, _⟩ => ⟨S2048x512, .bf16⟩
  | .hbm, ⟨29, _⟩ => ⟨S1x2048, .f32⟩
  | .hbm, ⟨30, _⟩ => ⟨S1x512, .f32⟩
  | .hbm, ⟨31, _⟩ => ⟨S8192x512, .f32⟩
  | .local _ .vmem, ⟨0, _⟩ => ⟨S512x4096, .f32⟩
  | .local _ .vmem, ⟨1, _⟩ => ⟨S512x4096, .f32⟩
  | .local _ .vmem, ⟨2, _⟩ => ⟨S4096x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32768 : S_.BroadcastsInDim S32768 (![] : Fin 0 → Fin S32768.rank)
  bcast_S_S8388608 : S_.BroadcastsInDim S8388608 (![] : Fin 0 → Fin S8388608.rank)
  bcast_S32768_S32768x1_0 : S32768.BroadcastsInDim S32768x1 (![0] : Fin 1 → Fin S32768x1.rank)
  shapeCasts_S8388608_S4096x2048 : S8388608.ShapeCasts S4096x2048
  bcast_S_S8192 : S_.BroadcastsInDim S8192 (![] : Fin 0 → Fin S8192.rank)
  bcast_S_S1048576 : S_.BroadcastsInDim S1048576 (![] : Fin 0 → Fin S1048576.rank)
  bcast_S8192_S8192x1_0 : S8192.BroadcastsInDim S8192x1 (![0] : Fin 1 → Fin S8192x1.rank)
  shapeCasts_S1048576_S2048x512 : S1048576.ShapeCasts S2048x512
  bitsLt_bf16_f32 : FTy.bits .bf16 < FTy.bits .f32
  shapeCasts_S2048_S1x2048 : S2048.ShapeCasts S1x2048
  shapeCasts_S512_S1x512 : S512.ShapeCasts S1x512
  inb_S512x4096_S512x4096_0_0 : ∀ a, (![0, 0] : Fin 2 → Nat) a + S512x4096.size a ≤ S512x4096.size a
  h_S512x4096 : 0 < S512x4096.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S8388608_S32768x1_S32768_n_0_0_1_wf : ScatterDims.WF S8388608 S32768x1 S32768 [] [0] [0] 1
  scatter_S1048576_S8192x1_S8192_n_0_0_1_wf : ScatterDims.WF S1048576 S8192x1 S8192 [] [0] [0] 1
  dot_S512x4096_S4096x2048_S512x2048_1_0_0_1_n_n_wf : DotDims.WF S512x4096 S4096x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)

variable [Facts₀]

def scatter_S8388608_S32768x1_S32768_n_0_0_1 : ScatterDims S8388608 S32768x1 S32768 where
  updateWindowDims := []
  insertedWindowDims := [0]
  scatterDimsToOperandDims := [0]
  indexVectorDim := 1
  wf := scatter_S8388608_S32768x1_S32768_n_0_0_1_wf
def scatter_S1048576_S8192x1_S8192_n_0_0_1 : ScatterDims S1048576 S8192x1 S8192 where
  updateWindowDims := []
  insertedWindowDims := [0]
  scatterDimsToOperandDims := [0]
  indexVectorDim := 1
  wf := scatter_S1048576_S8192x1_S8192_n_0_0_1_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S32768 : Shape := ⟨1, ![32768]⟩
abbrev S2048 : Shape := ⟨1, ![2048]⟩
abbrev S8192 : Shape := ⟨1, ![8192]⟩
abbrev S512 : Shape := ⟨1, ![512]⟩
abbrev S_ : Shape := ⟨0, ![]⟩
abbrev S32768x1 : Shape := ⟨2, ![32768, 1]⟩
abbrev S8192x32768 : Shape := ⟨2, ![8192, 32768]⟩
abbrev S1x32768 : Shape := ⟨2, ![1, 32768]⟩
abbrev S32768x8192 : Shape := ⟨2, ![32768, 8192]⟩
abbrev S2048x8192 : Shape := ⟨2, ![2048, 8192]⟩
abbrev S8192x2048 : Shape := ⟨2, ![8192, 2048]⟩
abbrev S1x2048 : Shape := ⟨2, ![1, 2048]⟩
abbrev S8192x1 : Shape := ⟨2, ![8192, 1]⟩
abbrev S8192x8192 : Shape := ⟨2, ![8192, 8192]⟩
abbrev S1x8192 : Shape := ⟨2, ![1, 8192]⟩
abbrev S512x8192 : Shape := ⟨2, ![512, 8192]⟩
abbrev S8192x512 : Shape := ⟨2, ![8192, 512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32768, .f32⟩
  | .hbm, ⟨2, _⟩ => ⟨S2048, .f32⟩
  | .hbm, ⟨3, _⟩ => ⟨S8192, .f32⟩
  | .hbm, ⟨4, _⟩ => ⟨S512, .f32⟩
  | .hbm, ⟨5, _⟩ => ⟨S32768, .i32⟩
  | .hbm, ⟨6, _⟩ => ⟨S32768, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S8192x32768, .f32⟩
  | .hbm, ⟨18, _⟩ => ⟨S1x32768, .f32⟩
  | .hbm, ⟨19, _⟩ => ⟨S8192x32768, .f32⟩
  | .hbm, ⟨20, _⟩ => ⟨S8192x32768, .f32⟩
  | .hbm, ⟨21, _⟩ => ⟨S32768x8192, .f32⟩
  | .hbm, ⟨22, _⟩ => ⟨S_, .f32⟩
  | .hbm, ⟨23, _⟩ => ⟨S2048x8192, .f32⟩
  | .hbm, ⟨24, _⟩ => ⟨S32768x1, .i32⟩
  | .hbm, ⟨25, _⟩ => ⟨S2048x8192, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x8192, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S512x8192, .f32⟩
  | .hbm, ⟨53, _⟩ => ⟨S8192x1, .i32⟩
  | .hbm, ⟨54, _⟩ => ⟨S512x8192, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S1x32768_S8192x32768_0_1 : S1x32768.BroadcastsInDim S8192x32768 (![0, 1] : Fin 2 → Fin S8192x32768.rank)
  transposes_S8192x32768_S32768x8192_1_0 : S8192x32768.Transposes [1, 0] S32768x8192
  bcast_S_S2048x8192 : S_.BroadcastsInDim S2048x8192 (![] : Fin 0 → Fin S2048x8192.rank)
  transposes_S2048x8192_S8192x2048_1_0 : S2048x8192.Transposes [1, 0] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S_S512x8192 : S_.BroadcastsInDim S512x8192 (![] : Fin 0 → Fin S512x8192.rank)
  transposes_S512x8192_S8192x512_1_0 : S512x8192.Transposes [1, 0] S8192x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  gather_S8192x4096_S32768x1_S8192x32768_0_1_n_n_1_1_81921_wf : GatherDims.WF S8192x4096 S32768x1 S8192x32768 [0] [1] [] [1] [] 1 ![8192, 1]
  scatter_S2048x8192_S32768x1_S32768x8192_1_0_0_1_wf : ScatterDims.WF S2048x8192 S32768x1 S32768x8192 [1] [0] [0] 1
  gather_S8192x2048_S8192x1_S8192x8192_0_1_n_n_1_1_81921_wf : GatherDims.WF S8192x2048 S8192x1 S8192x8192 [0] [1] [] [1] [] 1 ![8192, 1]
  scatter_S512x8192_S8192x1_S8192x8192_1_0_0_1_wf : ScatterDims.WF S512x8192 S8192x1 S8192x8192 [1] [0] [0] 1

variable [Facts₀]

def gather_S8192x4096_S32768x1_S8192x32768_0_1_n_n_1_1_81921 : GatherDims S8192x4096 S32768x1 S8192x32768 where
  offsetDims := [0]
  collapsedSliceDims := [1]
  operandBatchingDims := []
  startIndicesBatchingDims := []
  startIndexMap := [1]
  indexVectorDim := 1
  sliceSizes := ![8192, 1]
  wf := gather_S8192x4096_S32768x1_S8192x32768_0_1_n_n_1_1_81921_wf
def scatter_S2048x8192_S32768x1_S32768x8192_1_0_0_1 : ScatterDims S2048x8192 S32768x1 S32768x8192 where
  updateWindowDims := [1]
  insertedWindowDims := [0]
  scatterDimsToOperandDims := [0]
  indexVectorDim := 1
  wf := scatter_S2048x8192_S32768x1_S32768x8192_1_0_0_1_wf
def gather_S8192x2048_S8192x1_S8192x8192_0_1_n_n_1_1_81921 : GatherDims S8192x2048 S8192x1 S8192x8192 where
  offsetDims := [0]
  collapsedSliceDims := [1]
  operandBatchingDims := []
  startIndicesBatchingDims := []
  startIndexMap := [1]
  indexVectorDim := 1
  sliceSizes := ![8192, 1]
  wf := gather_S8192x2048_S8192x1_S8192x8192_0_1_n_n_1_1_81921_wf
def scatter_S512x8192_S8192x1_S8192x8192_1_0_0_1 : ScatterDims S512x8192 S8192x1 S8192x8192 where
  updateWindowDims := [1]
  insertedWindowDims := [0]
  scatterDimsToOperandDims := [0]
  indexVectorDim := 1
  wf := scatter_S512x8192_S8192x1_S8192x8192_1_0_0_1_wf

class Facts : Prop extends Facts₀ where

variable [Facts]
-- ==== Proof.Spec.lean ====
/-
  THE NETWORK BOTH PROGRAMS COMPUTE, as functions of the argument arrays over the extended reals.

  One layer takes a batch of rows x : [B, K], a list of E weighted edges (weight w e, target unit rows e, source
  column cols e) and a bias : [O], and gives out[b, o] = (sum over the edges e whose target is o of
  x[b, cols e] * w e) + bias o. That is the EDGE form (sparseLin): a sum over edges, selected by their target.

  The DENSE form (denseLin) first folds the edges into a K by O matrix, entry (k, o) the sum of the weights of the
  edges whose packed number flat e is k * O + o (denseW), and then gives out[b, o] = (sum over the K columns k of
  x[b, k] * W[k, o]) + bias o. With flat e = cols e * O + rows e and rows e below O the packed number k * O + o
  names exactly the edges from column k to unit o, and the two forms are the same function when the entries are real
  numbers (multiplication distributes over the inner sum): Proof/Algebra.lean.

  The network is two layers with the logistic function between them, 4096 inputs, 2048 hidden units, 512 outputs,
  32768 and 8192 edges, a batch of 8192 rows: net in the edge form, netDense in the dense form.
-/
import Idealize.ShloMosaic.PureOps.Ideal
import Idealize.ShloMosaic.Lib.ValueIdx
import Mathlib.Algebra.BigOperators.Group.Finset.Basic

noncomputable section

open scoped BigOperators

namespace Cert.SparseNet

open Idealize.ShloMosaic Idealize.ShloMosaic.ValueIdx

/-- A 32-bit word read as a column number among K columns: read signed, negative words at column 0, words past the
    last column at the last column. -/
def colIx (K : Nat) (hK : 0 < K) (c : BitVec 32) : Fin K := ⟨min c.toInt.toNat (K - 1), by omega⟩

/-- Every entry of an array of extended reals is a real number. -/
def AllReal {ι : Type} (f : ι → EReal) : Prop := ∀ j, ∃ r : ℝ, f j = (r : EReal)

/-- The packed edge number the dense form selects by: source column times the number O of units, plus target unit,
    in 32-bit words. -/
def flatOf {E : Nat} (O : Nat) (cols rows : IVec (⟨1, ![E]⟩ : Shape) 32) : IVec (⟨1, ![E]⟩ : Shape) 32 :=
  fun j => cols j * BitVec.ofNat 32 O + rows j

section Layer
variable {B K O E : Nat}

/-- EDGE FORM of a layer: at (b, o), the sum over the edges whose target word reads o of x[b, source column] times
    the edge's weight, plus the bias at o. -/
def sparseLin (hK : 0 < K) (x : (⟨2, ![B, K]⟩ : Shape).Idx → EReal) (w : (⟨1, ![E]⟩ : Shape).Idx → EReal)
    (bias : (⟨1, ![O]⟩ : Shape).Idx → EReal) (rows cols : IVec (⟨1, ![E]⟩ : Shape) 32) :
    (⟨2, ![B, O]⟩ : Shape).Idx → EReal :=
  fun i => (∑ e ∈ Finset.univ.filter (fun e : Fin E => (rows (ix1 e)).toInt = ((i 1).val : Int)),
      x (ix2 (i 0) (colIx K hK (cols (ix1 e)))) * w (ix1 e)) + bias (ix1 (i 1))

/-- The dense weight matrix of a layer: entry (k, o) is the sum of the weights of the edges whose packed number
    reads k * O + o. -/
def denseW (w : (⟨1, ![E]⟩ : Shape).Idx → EReal) (flat : IVec (⟨1, ![E]⟩ : Shape) 32) (k : Fin K) (o : Fin O) : EReal :=
  ∑ e ∈ Finset.univ.filter (fun e : Fin E => (flat (ix1 e)).toInt = ((k.val * O + o.val : Nat) : Int)), w (ix1 e)

/-- DENSE FORM of a layer: at (b, o), the sum over the columns k of x[b, k] times the dense weight (k, o), plus the
    bias at o. -/
def denseLin (x : (⟨2, ![B, K]⟩ : Shape).Idx → EReal) (w : (⟨1, ![E]⟩ : Shape).Idx → EReal)
    (bias : (⟨1, ![O]⟩ : Shape).Idx → EReal) (flat : IVec (⟨1, ![E]⟩ : Shape) 32) :
    (⟨2, ![B, O]⟩ : Shape).Idx → EReal :=
  fun i => (∑ k : Fin K, x (ix2 (i 0) k) * denseW (K := K) (O := O) w flat k (i 1)) + bias (ix1 (i 1))

end Layer

/-- The network in the edge form: layer 1 (4096 columns to 2048 units over 32768 edges), the logistic function
    entry by entry, layer 2 (2048 columns to 512 units over 8192 edges). -/
def net (x : (⟨2, ![8192, 4096]⟩ : Shape).Idx → EReal) (w1 : (⟨1, ![32768]⟩ : Shape).Idx → EReal)
    (b1 : (⟨1, ![2048]⟩ : Shape).Idx → EReal) (w2 : (⟨1, ![8192]⟩ : Shape).Idx → EReal)
    (b2 : (⟨1, ![512]⟩ : Shape).Idx → EReal) (rows1 cols1 : IVec (⟨1, ![32768]⟩ : Shape) 32)
    (rows2 cols2 : IVec (⟨1, ![8192]⟩ : Shape) 32) : (⟨2, ![8192, 512]⟩ : Shape).Idx → EReal :=
  sparseLin (K := 2048) (by decide)
    (fun j => Ideal.logistic (sparseLin (K := 4096) (O := 2048) (by decide) x w1 b1 rows1 cols1 j)) w2 b2 rows2 cols2

/-- The network in the dense form, over the two layers' packed edge numbers. -/
def netDense (x : (⟨2, ![8192, 4096]⟩ : Shape).Idx → EReal) (w1 : (⟨1, ![32768]⟩ : Shape).Idx → EReal)
    (b1 : (⟨1, ![2048]⟩ : Shape).Idx → EReal) (w2 : (⟨1, ![8192]⟩ : Shape).Idx → EReal)
    (b2 : (⟨1, ![512]⟩ : Shape).Idx → EReal) (flat1 : IVec (⟨1, ![32768]⟩ : Shape) 32)
    (flat2 : IVec (⟨1, ![8192]⟩ : Shape) 32) : (⟨2, ![8192, 512]⟩ : Shape).Idx → EReal :=
  denseLin (K := 2048)
    (fun j => Ideal.logistic (denseLin (K := 4096) (O := 2048) x w1 b1 flat1 j)) w2 b2 flat2

end Cert.SparseNet

end
-- ==== Proof.Algebra.lean ====
/-
  THE DENSE FORM OF A LAYER IS ITS EDGE FORM when the entries are real numbers and the edge words are in range.

  With the target word of every edge in [0, O) and the source word in [0, K), the packed number cols e * O + rows e
  (no 32-bit wrap: K * O is below 2^31) equals k * O + o exactly when the edge goes from column k to unit o. So the
  dense weight (k, o) is the sum of w e over those edges, and

    sum over k of x[b, k] * (sum over the edges e from k to o of w e)
      = sum over the edges e into o of x[b, cols e] * w e,

  by distributing x[b, k] over the inner sum (this is where the entries must be real: on the extended reals a product
  does not distribute over a sum of infinities of both signs) and exchanging the two sums. A layer of real entries has
  real entries, and the logistic function of a real number is a real number, so the second layer's input is real
  again and the whole network's two forms agree (netDense_eq_net).
-/
import proofs.«410486_j25074019074664_3_alg».proof.Proof.Spec
import Mathlib.Algebra.BigOperators.Ring.Finset

noncomputable section

open scoped BigOperators

namespace Cert.SparseNet

open Idealize.ShloMosaic Idealize.ShloMosaic.ValueIdx

/-- The coercion from the reals to the extended reals carries a finite sum to the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A word that reads as a nonnegative integer reads as its own natural number. -/
theorem toInt_eq_toNat_of_nonneg (c : BitVec 32) (hc : 0 ≤ c.toInt) :
    c.toInt = (c.toNat : Int) ∧ c.toNat < 2 ^ 31 := by
  have hlt := c.isLt
  rw [BitVec.toInt_eq_toNat_cond] at hc ⊢
  split_ifs at hc ⊢ with h <;> omega

/-- The packed number of an edge whose words are in range, read signed: no 32-bit wrap. -/
theorem flat_toInt (K O : Nat) (hKO : K * O < 2 ^ 31) (c r : BitVec 32)
    (hc : 0 ≤ c.toInt ∧ c.toInt < (K : Int)) (hr : 0 ≤ r.toInt ∧ r.toInt < (O : Int)) :
    (c * BitVec.ofNat 32 O + r).toInt = c.toInt * (O : Int) + r.toInt := by
  obtain ⟨hc0, hcK⟩ := hc
  obtain ⟨hr0, hrO⟩ := hr
  obtain ⟨hc', hc31⟩ := toInt_eq_toNat_of_nonneg c hc0
  obtain ⟨hr', hr31⟩ := toInt_eq_toNat_of_nonneg r hr0
  have hcn : c.toNat < K := by omega
  have hrn : r.toNat < O := by omega
  -- c.toNat * O + r.toNat < (c.toNat + 1) * O ≤ K * O < 2 ^ 31
  have hmul : (c.toNat + 1) * O ≤ K * O := Nat.mul_le_mul_right O hcn
  rw [Nat.add_mul, Nat.one_mul] at hmul
  have hO : 1 * O ≤ K * O := Nat.mul_le_mul_right O (by omega)
  rw [Nat.one_mul] at hO
  have hnat : (c * BitVec.ofNat 32 O + r).toNat = c.toNat * O + r.toNat := by
    rw [BitVec.toNat_add, BitVec.toNat_mul, BitVec.toNat_ofNat,
      Nat.mod_eq_of_lt (show O < 2 ^ 32 by omega),
      Nat.mod_eq_of_lt (show c.toNat * O < 2 ^ 32 by omega),
      Nat.mod_eq_of_lt (show c.toNat * O + r.toNat < 2 ^ 32 by omega)]
  rw [BitVec.toInt_eq_toNat_cond, hnat, if_pos (by omega), hc', hr']
  push_cast
  rfl

/-- THE EXCHANGE OF SUMS over the reals: a sum over the columns k of a k times (the sum of v e over the edges e that
    satisfy p and sit in column k) is the sum over the edges e that satisfy p of a (column of e) times v e. The factor
    a k distributes over the inner sum, the two sums change places, and for each edge exactly one column remains. -/
theorem sum_mul_sum_filter_eq {κ ε : Type} [Fintype κ] [Fintype ε] [DecidableEq κ] (a : κ → ℝ) (v : ε → ℝ)
    (c : ε → κ) (p : ε → Prop) [DecidablePred p] :
    ∑ k : κ, a k * ∑ e ∈ Finset.univ.filter (fun e : ε => p e ∧ c e = k), v e
      = ∑ e ∈ Finset.univ.filter (fun e : ε => p e), a (c e) * v e := by
  simp_rw [Finset.mul_sum, Finset.sum_filter]
  rw [Finset.sum_comm]
  apply Finset.sum_congr rfl
  intro e _
  by_cases hp : p e
  · simp [hp]
  · simp [hp]

section Layer
variable {B K O E : Nat}

/-- A layer of real entries has real entries. -/
theorem sparseLin_real (hK : 0 < K) (x : (⟨2, ![B, K]⟩ : Shape).Idx → EReal) (w : (⟨1, ![E]⟩ : Shape).Idx → EReal)
    (bias : (⟨1, ![O]⟩ : Shape).Idx → EReal) (rows cols : IVec (⟨1, ![E]⟩ : Shape) 32)
    (hx : AllReal x) (hw : AllReal w) (hb : AllReal bias) : AllReal (sparseLin hK x w bias rows cols) := by
  choose xr hxr using hx
  choose wr hwr using hw
  choose br hbr using hb
  intro i
  refine ⟨(∑ e ∈ Finset.univ.filter (fun e : Fin E => (rows (ix1 e)).toInt = ((i 1).val : Int)),
      xr (ix2 (i 0) (colIx K hK (cols (ix1 e)))) * wr (ix1 e)) + br (ix1 (i 1)), ?_⟩
  unfold sparseLin
  rw [EReal.coe_add, coe_sum, hbr]
  congr 1
  apply Finset.sum_congr rfl
  intro e _
  rw [hxr, hwr, EReal.coe_mul]

/-- For an edge whose words are in range, the packed number reads k * O + o exactly when the target word reads o and
    the source word's column is k. -/
theorem flat_eq_iff (hK : 0 < K) (hKO : K * O < 2 ^ 31) (c r : BitVec 32)
    (hc : 0 ≤ c.toInt ∧ c.toInt < (K : Int)) (hr : 0 ≤ r.toInt ∧ r.toInt < (O : Int)) (k : Fin K) (o : Fin O) :
    (c * BitVec.ofNat 32 O + r).toInt = ((k.val * O + o.val : Nat) : Int)
      ↔ (r.toInt = (o.val : Int) ∧ colIx K hK c = k) := by
  rw [flat_toInt K O hKO c r hc hr]
  obtain ⟨hc', -⟩ := toInt_eq_toNat_of_nonneg c hc.1
  obtain ⟨hr', -⟩ := toInt_eq_toNat_of_nonneg r hr.1
  have hcn : c.toNat < K := by omega
  have hrn : r.toNat < O := by omega
  have hk := k.isLt
  have ho := o.isLt
  have hcol : colIx K hK c = k ↔ c.toNat = k.val := by
    rw [Fin.ext_iff]
    show min c.toInt.toNat (K - 1) = k.val ↔ c.toNat = k.val
    rw [hc', Int.toNat_natCast]
    omega
  rw [hcol, hc', hr']
  constructor
  · intro h
    have h' : c.toNat * O + r.toNat = k.val * O + o.val := by exact_mod_cast h
    rcases Nat.lt_trichotomy c.toNat k.val with hlt | heq | hgt
    · have hm : (c.toNat + 1) * O ≤ k.val * O := Nat.mul_le_mul_right O hlt
      rw [Nat.add_mul, Nat.one_mul] at hm
      omega
    · rw [heq] at h'
      exact ⟨by omega, heq⟩
    · have hm : (k.val + 1) * O ≤ c.toNat * O := Nat.mul_le_mul_right O hgt
      rw [Nat.add_mul, Nat.one_mul] at hm
      omega
  · rintro ⟨h1, h2⟩
    have h1' : r.toNat = o.val := by exact_mod_cast h1
    rw [h1', h2]
    push_cast
    rfl

/-- THE TWO FORMS OF ONE LAYER AGREE: real entries, edge words in range, no wrap in the packed number. -/
theorem denseLin_eq_sparseLin (hK : 0 < K) (hKO : K * O < 2 ^ 31)
    (x : (⟨2, ![B, K]⟩ : Shape).Idx → EReal) (w : (⟨1, ![E]⟩ : Shape).Idx → EReal)
    (bias : (⟨1, ![O]⟩ : Shape).Idx → EReal) (rows cols : IVec (⟨1, ![E]⟩ : Shape) 32)
    (hx : AllReal x) (hw : AllReal w)
    (hrows : ∀ e : Fin E, 0 ≤ (rows (ix1 e)).toInt ∧ (rows (ix1 e)).toInt < (O : Int))
    (hcols : ∀ e : Fin E, 0 ≤ (cols (ix1 e)).toInt ∧ (cols (ix1 e)).toInt < (K : Int)) :
    denseLin x w bias (flatOf O cols rows) = sparseLin hK x w bias rows cols := by
  choose xr hxr using hx
  choose wr hwr using hw
  funext i
  unfold denseLin sparseLin denseW
  congr 1
  -- the edges the dense weight (k, o) selects are the edges into o from column k
  have hfilter : ∀ k : Fin K,
      Finset.univ.filter (fun e : Fin E => (flatOf O cols rows (ix1 e)).toInt = ((k.val * O + (i 1).val : Nat) : Int))
        = Finset.univ.filter (fun e : Fin E =>
            (rows (ix1 e)).toInt = ((i 1).val : Int) ∧ colIx K hK (cols (ix1 e)) = k) := by
    intro k
    apply Finset.filter_congr
    intro e _
    exact flat_eq_iff hK hKO (cols (ix1 e)) (rows (ix1 e)) (hcols e) (hrows e) k (i 1)
  simp only [hfilter]
  -- the exchange of sums, over the real entries
  have key := sum_mul_sum_filter_eq (fun k : Fin K => xr (ix2 (i 0) k)) (fun e : Fin E => wr (ix1 e))
    (fun e : Fin E => colIx K hK (cols (ix1 e))) (fun e : Fin E => (rows (ix1 e)).toInt = ((i 1).val : Int))
  have key' := congrArg (fun t : ℝ => (t : EReal)) key
  simp only [coe_sum, EReal.coe_mul, ← hxr, ← hwr] at key'
  exact key'

end Layer

/-- The logistic function of real entries has real entries. -/
theorem logistic_real {ι : Type} (f : ι → EReal) (hf : AllReal f) : AllReal (fun j => Ideal.logistic (f j)) := by
  intro j
  obtain ⟨r, hr⟩ := hf j
  refine ⟨(1 + Real.exp (-r))⁻¹, ?_⟩
  show Ideal.logistic (f j) = _
  rw [hr]
  exact Ideal.logistic_coe r

/-- THE NETWORK'S TWO FORMS AGREE on real inputs with every edge word in range. -/
theorem netDense_eq_net (x : (⟨2, ![8192, 4096]⟩ : Shape).Idx → EReal) (w1 : (⟨1, ![32768]⟩ : Shape).Idx → EReal)
    (b1 : (⟨1, ![2048]⟩ : Shape).Idx → EReal) (w2 : (⟨1, ![8192]⟩ : Shape).Idx → EReal)
    (b2 : (⟨1, ![512]⟩ : Shape).Idx → EReal) (rows1 cols1 : IVec (⟨1, ![32768]⟩ : Shape) 32)
    (rows2 cols2 : IVec (⟨1, ![8192]⟩ : Shape) 32)
    (hx : AllReal x) (hw1 : AllReal w1) (hb1 : AllReal b1) (hw2 : AllReal w2)
    (hr1 : ∀ e : Fin 32768, 0 ≤ (rows1 (ix1 e)).toInt ∧ (rows1 (ix1 e)).toInt < 2048)
    (hc1 : ∀ e : Fin 32768, 0 ≤ (cols1 (ix1 e)).toInt ∧ (cols1 (ix1 e)).toInt < 4096)
    (hr2 : ∀ e : Fin 8192, 0 ≤ (rows2 (ix1 e)).toInt ∧ (rows2 (ix1 e)).toInt < 512)
    (hc2 : ∀ e : Fin 8192, 0 ≤ (cols2 (ix1 e)).toInt ∧ (cols2 (ix1 e)).toInt < 2048) :
    netDense x w1 b1 w2 b2 (flatOf 2048 cols1 rows1) (flatOf 512 cols2 rows2)
      = net x w1 b1 w2 b2 rows1 cols1 rows2 cols2 := by
  unfold netDense net
  -- layer 1: the hidden layer's two forms agree
  have h1 : denseLin (K := 4096) (O := 2048) x w1 b1 (flatOf 2048 cols1 rows1)
      = sparseLin (K := 4096) (O := 2048) (by decide) x w1 b1 rows1 cols1 :=
    denseLin_eq_sparseLin (by decide) (by norm_num) x w1 b1 rows1 cols1 hx hw1
      (fun e => by exact_mod_cast hr1 e) (fun e => by exact_mod_cast hc1 e)
  rw [h1]
  -- layer 2: its input, the logistic function of a real layer, is real
  exact denseLin_eq_sparseLin (by decide) (by norm_num) _ w2 b2 rows2 cols2
    (logistic_real _ (sparseLin_real _ x w1 b1 rows1 cols1 hx hw1 hb1)) hw2
    (fun e => by exact_mod_cast hr2 e) (fun e => by exact_mod_cast hc2 e)

end Cert.SparseNet

end
-- ==== Proof.PreFacts.lean ====
/-
  WHAT THE PRECONDITION SAYS OF THE ARGUMENT ARRAYS.

  The printed precondition is one bit: the conjunction of nine tests, each an "all entries" reduction. Five say that
  the absolute value of every entry of a float array is below plus infinity, which on the extended reals means the
  entry is a real number. Four say that every word of an index array, read signed, is at least 0 and below the extent
  it indexes: target units below 2048 and 512, source columns below 4096 and 2048.
-/
import proofs.«410486_j25074019074664_3_alg».proof.Pre_finite_inputs
import proofs.«410486_j25074019074664_3_alg».proof.Proof.Gen.Pre_finite_inputs
import proofs.«410486_j25074019074664_3_alg».proof.Proof.Spec
import Idealize.ShloMosaic.Lib.ReduceAll
import Idealize.ShloMosaic.Lib.StableHlo.Predicate

noncomputable section

open scoped BigOperators

namespace Cert.PreFacts

open Idealize.ShloMosaic Idealize.ShloMosaic.ValueIdx Cert.SparseNet

/-- The shape with no axes has one index. -/
instance subsingleton_scalarIdx : Subsingleton (⟨0, ![]⟩ : Shape).Idx := ⟨fun _ _ => funext fun d => d.elim0⟩

/-- An extended real whose absolute value (the larger of it and its negation) is below plus infinity is a real number:
    plus infinity fails the test itself, minus infinity fails it through its negation. -/
theorem real_of_abs_lt_top (a : EReal) (h : max a (-a) < ⊤) : ∃ r : ℝ, a = (r : EReal) := by
  obtain ⟨h1, h2⟩ := max_lt_iff.1 h
  induction a using EReal.rec with
  | bot => exact absurd h2 (by simp)
  | coe r => exact ⟨r, rfl⟩
  | top => exact absurd h1 (lt_irrefl _)

/-- The 32-bit pattern 0x7F800000 denotes plus infinity. -/
theorem ofBits_inf : Ideal.ofBits .f32 0x7F800000#32 = (⊤ : EReal) := by simp [Ideal.ofBits, Ideal.ieee]

/-- THE FLOAT TEST. "Every entry's absolute value is below plus infinity", reduced by 'and' to one bit that is set,
    says every entry of the array is a real number. -/
theorem allReal_of_test {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1)
    (e : Host.reduce IntOp.andi (cmpf .olt (Host.absf x)
        (broadcastInDim s ![] hb (constant (F := Ideal) (⟨0, ![]⟩ : Shape) .f32 0x7F800000#32))) init hr hu ix0 = 1#1) :
    AllReal x := by
  intro j
  have hj := Host.reduce_andi_all _ init hr hu ix0 e j
  change Ideal.cmp .olt (max (x j) (-(x j))) (Ideal.ofBits .f32 0x7F800000#32) = 1#1 at hj
  rw [ofBits_inf] at hj
  simp only [Ideal.cmp, StableHlo.Predicate.ofBool_eq_one_iff, decide_eq_true_eq] at hj
  exact real_of_abs_lt_top (x j) hj

/-- THE INDEX TEST. "Every word is at least 0 and below the word b, read signed", reduced by 'and' to one bit that is
    set, says every word of the array, read signed, lies from 0 up to but not including b's reading. -/
theorem range_of_test {s : Shape} {axes : List (Fin s.rank)} (idx : IVec s 32) (b : BitVec 32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1)
    (e : Host.reduce IntOp.andi (andi (cmpi .sge idx (broadcastInDim s ![] hb (constantI (⟨0, ![]⟩ : Shape) 32 0#32)))
        (cmpi .slt idx (broadcastInDim s ![] hb (constantI (⟨0, ![]⟩ : Shape) 32 b)))) init hr hu ix0 = 1#1) (j : s.Idx) :
    0 ≤ (idx j).toInt ∧ (idx j).toInt < b.toInt := by
  have hj := Host.reduce_andi_all _ init hr hu ix0 e j
  change IntOp.andi (IntOp.cmpi .sge (idx j) 0#32) (IntOp.cmpi .slt (idx j) b) = 1#1 at hj
  obtain ⟨h1, h2⟩ := IntOp.andi_eq_one.1 hj
  have h1' := IntOp.cmpi_sge.1 h1
  have h2' := IntOp.cmpi_slt.1 h2
  exact ⟨by simpa using h1', h2'⟩

/-- The vector 'and' of two one-bit arrays is set at an index exactly when both are. -/
theorem andi_apply_eq_one {s : Shape} (a b : IVec s 1) (j : s.Idx) : andi a b j = 1#1 ↔ a j = 1#1 ∧ b j = 1#1 :=
  IntOp.andi_eq_one

/-- The precondition's bit is set exactly on real float arrays and in-range index arrays; the direction a proof uses. -/
theorem facts_of_pre (x0 : FVec Ideal (⟨2, ![8192, 4096]⟩ : Shape) .f32) (x1 : FVec Ideal (⟨1, ![32768]⟩ : Shape) .f32)
    (x2 : FVec Ideal (⟨1, ![2048]⟩ : Shape) .f32) (x3 : FVec Ideal (⟨1, ![8192]⟩ : Shape) .f32)
    (x4 : FVec Ideal (⟨1, ![512]⟩ : Shape) .f32) (x5 x6 : IVec (⟨1, ![32768]⟩ : Shape) 32)
    (x7 x8 : IVec (⟨1, ![8192]⟩ : Shape) 32)
    (h : Cert.Pre_finite_inputs.fn (F := Ideal) x0 x1 x2 x3 x4 x5 x6 x7 x8 = (fun _ => 1#1)) :
    AllReal x0 ∧ AllReal x1 ∧ AllReal x2 ∧ AllReal x3 ∧ AllReal x4
    ∧ (∀ e : Fin 32768, 0 ≤ (x5 (ix1 e)).toInt ∧ (x5 (ix1 e)).toInt < 2048)
    ∧ (∀ e : Fin 32768, 0 ≤ (x6 (ix1 e)).toInt ∧ (x6 (ix1 e)).toInt < 4096)
    ∧ (∀ e : Fin 8192, 0 ≤ (x7 (ix1 e)).toInt ∧ (x7 (ix1 e)).toInt < 512)
    ∧ (∀ e : Fin 8192, 0 ≤ (x8 (ix1 e)).toInt ∧ (x8 (ix1 e)).toInt < 2048) := by
  have h0 := congrFun h ix0
  simp only [Cert.Pre_finite_inputs.fn, Cert.Pre_finite_inputs.fn_part1, Cert.Pre_finite_inputs.fn_part2,
    Cert.Pre_finite_inputs.fn_part3, andi_apply_eq_one] at h0
  obtain ⟨⟨⟨⟨⟨⟨⟨⟨t0, t1⟩, t2⟩, t3⟩, t4⟩, t5⟩, t6⟩, t7⟩, t8⟩ := h0
  refine ⟨allReal_of_test x0 _ _ _ _ t0, allReal_of_test x1 _ _ _ _ t1, allReal_of_test x2 _ _ _ _ t2,
    allReal_of_test x3 _ _ _ _ t3, allReal_of_test x4 _ _ _ _ t4,
    fun e => range_of_test x5 2048#32 _ _ _ _ t5 (ix1 e), fun e => range_of_test x6 4096#32 _ _ _ _ t6 (ix1 e),
    fun e => range_of_test x7 512#32 _ _ _ _ t7 (ix1 e), fun e => range_of_test x8 2048#32 _ _ _ _ t8 (ix1 e)⟩

end Cert.PreFacts

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherCols.lean ====
/-
  THE HOST'S GATHER OF WHOLE COLUMNS READ AT AN INDEX.

  Picking columns of a matrix by a list of column numbers, x[:, idx] with x : [B, K] and idx : [N], lowers to a gather
  whose start indices are the [N, 1] column of idx with the index vector on axis 1, offset axes [0], collapsed slice
  axes [1], start index map [1], no batching axes and slices of one column. Result element (b, n) is x at row b and at
  the column idx[n, 0] read signed and clamped into [0, K - 1], as the gather clamps every start index.

  The extents B, K, N and the index width w are variables: nothing here evaluates a size. The dimension numbers are
  known only through the equations on their lists.
-/
import Idealize.ShloMosaic.PureOps.Ideal
import Idealize.ShloMosaic.Lib.ValueIdx

noncomputable section

namespace Idealize.ShloMosaic.GatherCols

open Idealize.ShloMosaic Idealize.ShloMosaic.ValueIdx

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section Cols
variable {α : Type} {B K N w : Nat}
variable (d : GatherDims (⟨2, ![B, K]⟩ : Shape) (⟨2, ![N, 1]⟩ : Shape) (⟨2, ![B, N]⟩ : Shape))

/-- With the index vector on axis 1 and the one batch axis of the result its axis 1, result index (b, n) reads its
    start index at [n, 0]. -/
theorem siIdx_cols (hod : d.offsetDims = [0]) (hiv : d.indexVectorDim = 1) (b : Fin B) (n : Fin N)
    (c : Fin d.startIndexMap.length) : d.siIdx (ix2 b n) c = ix2 n (0 : Fin 1) := by
  have hbd : d.batchDims = [1] := by
    show Shape.kept _ d.offsetDims = [1]
    rw [hod]; rfl
  funext a
  refine Fin.ext ?_
  match a with
  | ⟨0, ha⟩ =>
    have hne : ¬ (⟨0, ha⟩ : Fin 2).val = d.indexVectorDim := by rw [hiv]; exact Nat.zero_ne_one
    show (d.siIdx (ix2 b n) c ⟨0, ha⟩).val = n.val
    unfold GatherDims.siIdx
    rw [dif_neg hne]
    unfold GatherDims.siCoord
    exact congrArg (fun e => ((ix2 b n : (⟨2, ![B, N]⟩ : Shape).Idx) e).val) (getElem_of_eq_singleton hbd _ _)
  | ⟨1, ha⟩ =>
    have h1 : (d.siIdx (ix2 b n) c ⟨1, ha⟩).val < 1 := (d.siIdx (ix2 b n) c ⟨1, ha⟩).isLt
    show (d.siIdx (ix2 b n) c ⟨1, ha⟩).val = 0
    omega

/-- THE GATHER READ AT (b, n): row b of the operand at the column the n-th start index names, read signed and clamped
    into [0, K - 1]. -/
theorem gather_cols_apply (hK : 0 < K)
    (hod : d.offsetDims = [0]) (hcs : d.collapsedSliceDims = [1]) (hob : d.operandBatchingDims = [])
    (hsm : d.startIndexMap = [1]) (hiv : d.indexVectorDim = 1)
    (x : (⟨2, ![B, K]⟩ : Shape).Idx → α) (idx : IVec (⟨2, ![N, 1]⟩ : Shape) w) (b : Fin B) (n : Fin N) :
    Host.gather d x idx (ix2 b n)
      = x (ix2 b ⟨min (idx (ix2 n (0 : Fin 1))).toInt.toNat (K - 1), by omega⟩) := by
  have h10 : ¬ (1 : Fin 2) = 0 := fun h => absurd (congrArg Fin.val h) Nat.one_ne_zero
  have h01 : ¬ (0 : Fin 2) = 1 := fun h => absurd (congrArg Fin.val h) Nat.zero_ne_one
  have hnb : ∀ a : Fin 2, a ∉ d.operandBatchingDims := fun a => by rw [hob]; exact List.not_mem_nil
  have hsk : d.sKept = [0] := by
    show Shape.kept _ (d.collapsedSliceDims ++ d.operandBatchingDims) = [0]
    rw [hcs, hob]; rfl
  unfold Host.gather
  congr 1
  funext a
  refine Fin.ext ?_
  show d.start (ix2 b n) idx a + d.batchCoord (ix2 b n) a + d.offCoord (ix2 b n) a = _
  rw [d.batchCoord_eq_zero _ _ (hnb a), Nat.add_zero]
  match a with
  | ⟨0, ha⟩ =>
    have hns : (⟨0, ha⟩ : Fin 2) ∉ d.startIndexMap := by
      rw [hsm]; exact fun h => h01 (List.mem_singleton.1 h)
    have hk0 : (⟨0, ha⟩ : Fin 2) ∈ d.sKept := by rw [hsk]; exact List.mem_singleton.2 rfl
    have hst : d.start (ix2 b n) idx ⟨0, ha⟩ = 0 := by
      unfold GatherDims.start
      rw [dif_neg hns]
    have hoff : d.offCoord (ix2 b n) ⟨0, ha⟩ = b.val := by
      unfold GatherDims.offCoord
      rw [dif_pos hk0]
      exact congrArg (fun e => ((ix2 b n : (⟨2, ![B, N]⟩ : Shape).Idx) e).val) (getElem_of_eq_singleton hod _ _)
    rw [hst, hoff, Nat.zero_add]
  | ⟨1, ha⟩ =>
    have hs : (⟨1, ha⟩ : Fin 2) ∈ d.startIndexMap := by rw [hsm]; exact List.mem_singleton.2 rfl
    have hc : (⟨1, ha⟩ : Fin 2) ∈ d.collapsedSliceDims := by rw [hcs]; exact List.mem_singleton.2 rfl
    have hnk : (⟨1, ha⟩ : Fin 2) ∉ d.sKept := fun h => ((d.mem_sKept _).1 h).1 hc
    have hsl : d.sliceSizes ⟨1, ha⟩ = 1 := d.slice_collapsed _ hc
    have hst : d.start (ix2 b n) idx ⟨1, ha⟩ = min (idx (ix2 n (0 : Fin 1))).toInt.toNat (K - 1) := by
      unfold GatherDims.start
      rw [dif_pos hs, siIdx_cols d hod hiv b n, hsl]
      rfl
    rw [hst, d.offCoord_eq_zero _ _ hnk, Nat.add_zero]

end Cols

end Idealize.ShloMosaic.GatherCols

end
-- ==== Proof.RefValue.lean ====
/-
  THE REFERENCE COMPUTES THE NETWORK IN ITS EDGE FORM.

  Read one operation at a time, the reference's result at (b, o) is: the scatter of layer 2 at (o, b), which is zero
  plus the sum, over the edges whose target word reads o, of the gathered hidden entry times the edge weight; the
  gathered hidden entry is the logistic (written 1 / (1 + exp (- .))) of layer 1 at row b and at the column the
  edge's source word names; and layer 1 is the same scatter, gather and product over the input. The gather first adds
  the number of columns to a negative source word; on source words that are not negative this changes nothing, which
  is the one hypothesis the reading takes.
-/
import proofs.«410486_j25074019074664_3_alg».proof.Proof.Gen.ReferenceIdeal.Read
import proofs.«410486_j25074019074664_3_alg».proof.Proof.Spec
import proofs.«410486_j25074019074664_3_alg».proof.Proof.LibScatterSum
import proofs.«410486_j25074019074664_3_alg».proof.Proof.LibGatherCols
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.SparseNet Cert.ReferenceIdeal Cert.ReferenceIdeal.Read

/-- A select on "the word is negative" keeps a word that is not negative. -/
theorem select_nonneg (a c : BitVec 32) (h : 0 ≤ a.toInt) :
    Scalar.select (IntOp.cmpi .slt a 0#32) c a = a := by
  have hz : IntOp.cmpi .slt a 0#32 = 0#1 := by
    unfold IntOp.cmpi
    have : a.slt 0#32 = false := by
      rw [BitVec.slt]
      simp only [BitVec.toInt_zero, decide_eq_false_iff_not, not_lt]
      exact h
    rw [this]; rfl
  rw [hz, select_zero]

/-! ## The layout operations' operand indices at explicit coordinates

Each equation says which operand entry a broadcast or a transpose reads at the coordinates (n, 0), (n, b) or (b, o). -/

theorem i12 (n : Fin 32768) : idx_main_v12 (ix2 n (0 : Fin 1)) = ix1 n := by
  funext a; match a with | ⟨0, _⟩ => rfl

theorem i5 (n : Fin 32768) : idx_main_v5 (ix2 n (0 : Fin 1)) = ix1 n := by
  funext a; match a with | ⟨0, _⟩ => rfl

theorem i10 (n : Fin 32768) (b : Fin 8192) : idx_main_v10 (ix2 n b) = ix2 b n := by
  funext a; match a with | ⟨0, _⟩ => rfl | ⟨1, _⟩ => rfl

theorem i14 (b : Fin 8192) (o : Fin 2048) : idx_main_v14 (ix2 b o) = ix2 o b := by
  funext a; match a with | ⟨0, _⟩ => rfl | ⟨1, _⟩ => rfl

theorem i78 (b : Fin 8192) (n : Fin 32768) : idx_main_v7 (idx_main_v8 (ix2 b n)) = ix1 n := by
  funext a; match a with | ⟨0, _⟩ => rfl

theorem i1516 (b : Fin 8192) (o : Fin 2048) : idx_main_v15 (idx_main_v16 (ix2 b o)) = ix1 o := by
  funext a; match a with | ⟨0, _⟩ => rfl

/-- The start index of layer 1's gather at edge n is the edge's source word. -/
theorem start1 (x6 : IVec S32768 32) (hc1 : ∀ e : Fin 32768, 0 ≤ (x6 (ix1 e)).toInt) (n : Fin 32768) :
    val_main_v5 (F := Ideal) x6 (ix2 n (0 : Fin 1)) = x6 (ix1 n) := by
  rw [val_main_v5_apply, i5, val_main_v4_apply, val_main_v1_apply, val_main_v0_apply, val_main_c_apply]
  exact select_nonneg _ _ (hc1 n)

/-- Layer 1's update at edge n and row b: the input at row b and the edge's source column, times the edge's weight. -/
theorem upd1 (x0 : FVec Ideal S8192x4096 .f32) (x1 : FVec Ideal S32768 .f32) (x6 : IVec S32768 32)
    (hc1 : ∀ e : Fin 32768, 0 ≤ (x6 (ix1 e)).toInt) (n : Fin 32768) (b : Fin 8192) :
    val_main_v10 (F := Ideal) x0 x1 x6 (ix2 n b)
      = x0 (ix2 b (colIx 4096 (by decide) (x6 (ix1 n)))) * x1 (ix1 n) := by
  rw [val_main_v10_apply, i10, val_main_v9_apply, val_main_v8_apply, val_main_v7_apply, i78]
  show val_main_v6 (F := Ideal) x0 x6 (ix2 b n) * x1 (ix1 n) = _
  congr 1
  unfold val_main_v6
  rw [GatherCols.gather_cols_apply _ (by decide) rfl rfl rfl rfl rfl]
  refine congrArg (fun c => x0 (ix2 b c)) (Fin.ext ?_)
  show min (val_main_v5 (F := Ideal) x6 (ix2 n (0 : Fin 1))).toInt.toNat (4096 - 1)
    = min (x6 (ix1 n)).toInt.toNat (4096 - 1)
  rw [start1 x6 hc1]

/-- Layer 1 of the reference is the edge form of the layer. -/
theorem layer1 (x0 : FVec Ideal S8192x4096 .f32) (x1 : FVec Ideal S32768 .f32) (x2 : FVec Ideal S2048 .f32)
    (x5 x6 : IVec S32768 32) (hc1 : ∀ e : Fin 32768, 0 ≤ (x6 (ix1 e)).toInt) :
    val_main_v17 (F := Ideal) x0 x1 x2 x5 x6
      = sparseLin (K := 4096) (O := 2048) (by decide) x0 x1 x2 x5 x6 := by
  funext i
  obtain ⟨b, o, rfl⟩ : ∃ (b : Fin 8192) (o : Fin 2048), i = ix2 b o := ⟨i 0, i 1, eq_ix2 i⟩
  rw [val_main_v17_apply, val_main_v14_apply, i14, val_main_v16_apply, val_main_v15_apply, i1516]
  unfold val_main_v13
  show Ideal.hostScatterAdd _ _ _ _ (ix2 o b) + x2 (ix1 o) = _
  rw [ScatterSum.scatterAdd_rows_apply _ rfl rfl rfl rfl, val_main_v11_apply, val_main_cst_apply]
  show (Ideal.ofBits .f32 0x00000000#32 + _) + _ = _
  rw [Ideal.ofBits_zero_f32, zero_add]
  unfold sparseLin
  show _ = (∑ e ∈ Finset.univ.filter (fun e : Fin 32768 => (x5 (ix1 e)).toInt = (o.val : Int)),
      x0 (ix2 b (colIx 4096 (by decide) (x6 (ix1 e)))) * x1 (ix1 e)) + x2 (ix1 o)
  refine congrArg (fun t => t + x2 (ix1 o)) ?_
  simp only [val_main_v12_apply, i12]
  exact Finset.sum_congr rfl fun n _ => upd1 x0 x1 x6 hc1 n b

/-- The hidden layer of the reference is the logistic function of layer 1, entry by entry. -/
theorem hidden (x0 : FVec Ideal S8192x4096 .f32) (x1 : FVec Ideal S32768 .f32) (x2 : FVec Ideal S2048 .f32)
    (x5 x6 : IVec S32768 32) (hc1 : ∀ e : Fin 32768, 0 ≤ (x6 (ix1 e)).toInt) :
    val_main_v23 (F := Ideal) x0 x1 x2 x5 x6
      = fun j => Ideal.logistic (sparseLin (K := 4096) (O := 2048) (by decide) x0 x1 x2 x5 x6 j) := by
  funext j
  rw [val_main_v23_apply, val_main_v22_apply, val_main_cst_2_apply, val_main_v21_apply, val_main_v20_apply,
    val_main_cst_1_apply, val_main_v19_apply, val_main_v18_apply, layer1 x0 x1 x2 x5 x6 hc1]
  simp only [Ideal.hostDivf_def, Ideal.ofBits_def, Ideal.addf_def, Ideal.hostUnary_exp_def, Ideal.hostNegf_def,
    Ideal.negf_def, Ideal.ofBits_one_f32]
  rfl

theorem i36 (n : Fin 8192) : idx_main_v36 (ix2 n (0 : Fin 1)) = ix1 n := by
  funext a; match a with | ⟨0, _⟩ => rfl

theorem i29 (n : Fin 8192) : idx_main_v29 (ix2 n (0 : Fin 1)) = ix1 n := by
  funext a; match a with | ⟨0, _⟩ => rfl

theorem i34 (n : Fin 8192) (b : Fin 8192) : idx_main_v34 (ix2 n b) = ix2 b n := by
  funext a; match a with | ⟨0, _⟩ => rfl | ⟨1, _⟩ => rfl

theorem i38 (b : Fin 8192) (o : Fin 512) : idx_main_v38 (ix2 b o) = ix2 o b := by
  funext a; match a with | ⟨0, _⟩ => rfl | ⟨1, _⟩ => rfl

theorem i3132 (b : Fin 8192) (n : Fin 8192) : idx_main_v31 (idx_main_v32 (ix2 b n)) = ix1 n := by
  funext a; match a with | ⟨0, _⟩ => rfl

theorem i3940 (b : Fin 8192) (o : Fin 512) : idx_main_v39 (idx_main_v40 (ix2 b o)) = ix1 o := by
  funext a; match a with | ⟨0, _⟩ => rfl

/-- The start index of layer 2's gather at edge n is the edge's source word. -/
theorem start2 (x8 : IVec S8192 32) (hc2 : ∀ e : Fin 8192, 0 ≤ (x8 (ix1 e)).toInt) (n : Fin 8192) :
    val_main_v29 (F := Ideal) x8 (ix2 n (0 : Fin 1)) = x8 (ix1 n) := by
  rw [val_main_v29_apply, i29, val_main_v28_apply, val_main_v25_apply, val_main_v24_apply, val_main_c_3_apply]
  exact select_nonneg _ _ (hc2 n)

/-- Layer 2's update at edge n and row b: the hidden entry at row b and the edge's source column, times the edge's
    weight. -/
theorem upd2 (x0 : FVec Ideal S8192x4096 .f32) (x1 : FVec Ideal S32768 .f32) (x2 : FVec Ideal S2048 .f32)
    (x3 : FVec Ideal S8192 .f32) (x5 x6 : IVec S32768 32) (x8 : IVec S8192 32)
    (hc2 : ∀ e : Fin 8192, 0 ≤ (x8 (ix1 e)).toInt) (n : Fin 8192) (b : Fin 8192) :
    val_main_v34 (F := Ideal) x0 x1 x2 x3 x5 x6 x8 (ix2 n b)
      = val_main_v23 (F := Ideal) x0 x1 x2 x5 x6 (ix2 b (colIx 2048 (by decide) (x8 (ix1 n)))) * x3 (ix1 n) := by
  rw [val_main_v34_apply, i34, val_main_v33_apply, val_main_v32_apply, val_main_v31_apply, i3132]
  show val_main_v30 (F := Ideal) x0 x1 x2 x5 x6 x8 (ix2 b n) * x3 (ix1 n) = _
  refine congrArg (fun t => t * x3 (ix1 n)) ?_
  unfold val_main_v30
  rw [GatherCols.gather_cols_apply _ (by decide) rfl rfl rfl rfl rfl]
  refine congrArg (fun c => val_main_v23 (F := Ideal) x0 x1 x2 x5 x6 (ix2 b c)) (Fin.ext ?_)
  show min (val_main_v29 (F := Ideal) x8 (ix2 n (0 : Fin 1))).toInt.toNat (2048 - 1)
    = min (x8 (ix1 n)).toInt.toNat (2048 - 1)
  rw [start2 x8 hc2]

/-- The reference's last stage is the network in the edge form, on source words that are not negative. -/
theorem ref_eq (x0 : FVec Ideal S8192x4096 .f32) (x1 : FVec Ideal S32768 .f32) (x2 : FVec Ideal S2048 .f32)
    (x3 : FVec Ideal S8192 .f32) (x4 : FVec Ideal S512 .f32) (x5 x6 : IVec S32768 32) (x7 x8 : IVec S8192 32)
    (hc1 : ∀ e : Fin 32768, 0 ≤ (x6 (ix1 e)).toInt) (hc2 : ∀ e : Fin 8192, 0 ≤ (x8 (ix1 e)).toInt) :
    val_main_v41 (F := Ideal) x0 x1 x2 x3 x4 x5 x6 x7 x8 = net x0 x1 x2 x3 x4 x5 x6 x7 x8 := by
  funext i
  obtain ⟨b, o, rfl⟩ : ∃ (b : Fin 8192) (o : Fin 512), i = ix2 b o := ⟨i 0, i 1, eq_ix2 i⟩
  rw [val_main_v41_apply, val_main_v38_apply, i38, val_main_v40_apply, val_main_v39_apply, i3940]
  unfold val_main_v37
  show Ideal.hostScatterAdd _ _ _ _ (ix2 o b) + x4 (ix1 o) = _
  rw [ScatterSum.scatterAdd_rows_apply _ rfl rfl rfl rfl, val_main_v35_apply, val_main_cst_5_apply]
  show (Ideal.ofBits .f32 0x00000000#32 + _) + _ = _
  rw [Ideal.ofBits_zero_f32, zero_add]
  unfold net sparseLin
  show _ = (∑ e ∈ Finset.univ.filter (fun e : Fin 8192 => (x7 (ix1 e)).toInt = (o.val : Int)),
      Ideal.logistic (sparseLin (K := 4096) (O := 2048) (by decide) x0 x1 x2 x5 x6
        (ix2 b (colIx 2048 (by decide) (x8 (ix1 e))))) * x3 (ix1 e)) + x4 (ix1 o)
  refine congrArg (fun t => t + x4 (ix1 o)) ?_
  simp only [val_main_v36_apply, i36]
  refine Finset.sum_congr rfl fun n _ => ?_
  rw [upd2 x0 x1 x2 x3 x5 x6 x8 hc2 n b, hidden x0 x1 x2 x5 x6 hc1]

end Cert.ReferenceIdeal.RefValue

end
-- ==== Proof.KernelHost.lean ====
/-
  THE ARRAYS THE KERNEL'S HOST CODE BUILDS BEFORE THE LAUNCH, read at an index.

  Each weight matrix is a flat array of K * O zeros into which every edge's weight is added at the edge's packed
  number cols e * O + rows e, then laid out as K rows of O: entry (k, o) is the flat entry k * O + o, which is the sum
  of the weights of the edges whose packed number reads k * O + o, the dense weight of the specification. (The change
  of float format that follows is the identity on extended reals.) Each bias is its vector laid out as one row.
-/
import proofs.«410486_j25074019074664_3_alg».proof.Proof.Gen.KernelIdeal.Value
import proofs.«410486_j25074019074664_3_alg».proof.Proof.Spec
import proofs.«410486_j25074019074664_3_alg».proof.Proof.LibScatterSum
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo Cert.SparseNet

/-! ## The host operations' terms -/

/-- Layer 1's weight matrix as the host operations compute it from the edge arrays. -/
def w1term (cols rows : IVec S32768 32) (w : FVec Ideal S32768 .f32) : FVec Ideal S4096x2048 .bf16 :=
  truncf .bf16 (shapeCast S4096x2048 (Host.scatterAdd scatter_S8388608_S32768x1_S32768_n_0_0_1
    (broadcastInDim S8388608 ![] bcast_S_S8388608 (constant (F := Ideal) S_ .f32 0x00000000#32))
    (broadcastInDim S32768x1 ![0] bcast_S32768_S32768x1_0
      (addi (muli cols (broadcastInDim S32768 ![] bcast_S_S32768 (constantI S_ 32 2048#32))) rows))
    w) shapeCasts_S8388608_S4096x2048) bitsLt_bf16_f32

/-- Layer 2's weight matrix as the host operations compute it from the edge arrays. -/
def w2term (cols rows : IVec S8192 32) (w : FVec Ideal S8192 .f32) : FVec Ideal S2048x512 .bf16 :=
  truncf .bf16 (shapeCast S2048x512 (Host.scatterAdd scatter_S1048576_S8192x1_S8192_n_0_0_1
    (broadcastInDim S1048576 ![] bcast_S_S1048576 (constant (F := Ideal) S_ .f32 0x00000000#32))
    (broadcastInDim S8192x1 ![0] bcast_S8192_S8192x1_0
      (addi (muli cols (broadcastInDim S8192 ![] bcast_S_S8192 (constantI S_ 32 512#32))) rows))
    w) shapeCasts_S1048576_S2048x512) bitsLt_bf16_f32

/-! ## A flat scatter of edge weights into zeros, laid out as a matrix, read at (k, o) -/

/-- The zero array the scatter starts from reads 0 everywhere. -/
theorem zeros_apply {t : Shape} (h : S_.BroadcastsInDim t ![]) (j : t.Idx) :
    broadcastInDim t ![] h (constant (F := Ideal) S_ .f32 0x00000000#32) j = (0 : EReal) := by
  rw [broadcastInDim_apply _ h _ j ix0 (fun a => a.elim0)]
  exact Ideal.ofBits_zero_f32

/-- The packed numbers as a column read, at row n, the n-th packed number. -/
theorem col32768_apply (f : IVec S32768 32) (n : Fin 32768) :
    broadcastInDim S32768x1 ![0] bcast_S32768_S32768x1_0 f (ix2 n (0 : Fin 1)) = f (ix1 n) :=
  broadcastInDim_apply _ bcast_S32768_S32768x1_0 f _ (ix1 n) (fun a => match a with
    | ⟨0, _⟩ => by show n.val = if (32768 : Nat) = 1 then 0 else n.val; rw [if_neg (by decide)])

theorem col8192_apply (f : IVec S8192 32) (n : Fin 8192) :
    broadcastInDim S8192x1 ![0] bcast_S8192_S8192x1_0 f (ix2 n (0 : Fin 1)) = f (ix1 n) :=
  broadcastInDim_apply _ bcast_S8192_S8192x1_0 f _ (ix1 n) (fun a => match a with
    | ⟨0, _⟩ => by show n.val = if (8192 : Nat) = 1 then 0 else n.val; rw [if_neg (by decide)])

/-- The packed number the host operations compute is the specification's. -/
theorem flat1_eq (cols rows : IVec S32768 32) :
    addi (muli cols (broadcastInDim S32768 ![] bcast_S_S32768 (constantI S_ 32 2048#32))) rows
      = flatOf 2048 cols rows := by
  funext j
  show cols j * (broadcastInDim S32768 ![] bcast_S_S32768 (constantI S_ 32 2048#32) j) + rows j = _
  rw [broadcastInDim_apply _ bcast_S_S32768 _ j ix0 (fun a => a.elim0)]
  rfl

theorem flat2_eq (cols rows : IVec S8192 32) :
    addi (muli cols (broadcastInDim S8192 ![] bcast_S_S8192 (constantI S_ 32 512#32))) rows
      = flatOf 512 cols rows := by
  funext j
  show cols j * (broadcastInDim S8192 ![] bcast_S_S8192 (constantI S_ 32 512#32) j) + rows j = _
  rw [broadcastInDim_apply _ bcast_S_S8192 _ j ix0 (fun a => a.elim0)]
  rfl

/-- Layer 1's weight matrix at (k, o) is the dense weight (k, o). -/
theorem w1term_apply (cols rows : IVec S32768 32) (w : FVec Ideal S32768 .f32) (k : Fin 4096) (o : Fin 2048) :
    w1term cols rows w (ix2 k o) = denseW (K := 4096) (O := 2048) w (flatOf 2048 cols rows) k o := by
  unfold w1term
  rw [truncf_apply, flat1_eq,
    shapeCast_apply _ shapeCasts_S8388608_S4096x2048 (ix2 k o)
      (ix1 (⟨k.val * 2048 + o.val, by have := k.isLt; have := o.isLt; omega⟩ : Fin 8388608))
      (by rw [Shape.rowMajor_val_one, Shape.rowMajor_val_two]; rfl)]
  show Ideal.hostScatterAdd scatter_S8388608_S32768x1_S32768_n_0_0_1 _ _ _ _ = _
  rw [ScatterSum.scatterAdd_flat_apply _ rfl rfl rfl rfl, zeros_apply, zero_add]
  unfold denseW
  refine Finset.sum_congr (Finset.filter_congr fun n _ => ?_) fun _ _ => rfl
  rw [col32768_apply]

/-- Layer 2's weight matrix at (k, o) is the dense weight (k, o). -/
theorem w2term_apply (cols rows : IVec S8192 32) (w : FVec Ideal S8192 .f32) (k : Fin 2048) (o : Fin 512) :
    w2term cols rows w (ix2 k o) = denseW (K := 2048) (O := 512) w (flatOf 512 cols rows) k o := by
  unfold w2term
  rw [truncf_apply, flat2_eq,
    shapeCast_apply _ shapeCasts_S1048576_S2048x512 (ix2 k o)
      (ix1 (⟨k.val * 512 + o.val, by have := k.isLt; have := o.isLt; omega⟩ : Fin 1048576))
      (by rw [Shape.rowMajor_val_one, Shape.rowMajor_val_two]; rfl)]
  show Ideal.hostScatterAdd scatter_S1048576_S8192x1_S8192_n_0_0_1 _ _ _ _ = _
  rw [ScatterSum.scatterAdd_flat_apply _ rfl rfl rfl rfl, zeros_apply, zero_add]
  unfold denseW
  refine Finset.sum_congr (Finset.filter_congr fun n _ => ?_) fun _ _ => rfl
  rw [col8192_apply]

/-- A bias vector laid out as one row reads, at (0, o), the vector at o. -/
theorem bias1_apply (b : FVec Ideal S2048 .f32) (z : Fin 1) (o : Fin 2048) :
    shapeCast S1x2048 b shapeCasts_S2048_S1x2048 (ix2 z o) = b (ix1 o) :=
  shapeCast_apply _ shapeCasts_S2048_S1x2048 (ix2 z o) (ix1 o)
    (by rw [Shape.rowMajor_val_one, Shape.rowMajor_val_two]; have := z.isLt; show o.val = z.val * 2048 + o.val; omega)

theorem bias2_apply (b : FVec Ideal S512 .f32) (z : Fin 1) (o : Fin 512) :
    shapeCast S1x512 b shapeCasts_S512_S1x512 (ix2 z o) = b (ix1 o) :=
  shapeCast_apply _ shapeCasts_S512_S1x512 (ix2 z o) (ix1 o)
    (by rw [Shape.rowMajor_val_one, Shape.rowMajor_val_two]; have := z.isLt; show o.val = z.val * 512 + o.val; omega)

/-! ## The arrays as the region finds them -/

variable (m : (ℓ : Loc nD τ sig) → Buf (Elt Ideal) ℓ)

theorem V_w1 (c : Dev nD) : (V m c main_v14 : S4096x2048.Idx → EReal)
    = w1term (m ((c : Thread nD τ).loc main_arg6)) (m ((c : Thread nD τ).loc main_arg5)) (m ((c : Thread nD τ).loc main_arg1)) := by
  dsimp only [Gen.V, Gen.hostOps0]; after_results; rfl

theorem V_w2 (c : Dev nD) : (V m c main_v15 : S2048x512.Idx → EReal)
    = w2term (m ((c : Thread nD τ).loc main_arg8)) (m ((c : Thread nD τ).loc main_arg7)) (m ((c : Thread nD τ).loc main_arg3)) := by
  dsimp only [Gen.V, Gen.hostOps0]; after_results; rfl

theorem V_b1 (c : Dev nD) : (V m c main_v16 : S1x2048.Idx → EReal)
    = shapeCast S1x2048 (m ((c : Thread nD τ).loc main_arg2)) shapeCasts_S2048_S1x2048 := by
  dsimp only [Gen.V, Gen.hostOps0]; after_results; rfl

theorem V_b2 (c : Dev nD) : (V m c main_v17 : S1x512.Idx → EReal)
    = shapeCast S1x512 (m ((c : Thread nD τ).loc main_arg4)) shapeCasts_S512_S1x512 := by
  dsimp only [Gen.V, Gen.hostOps0]; after_results; rfl

end Cert.KernelIdeal.KHost

end
-- ==== Proof.KernelPayload.lean ====
/-
  THE VALUE THE KERNEL BODY STORES, read at an index.

  From a block x of 512 rows of the input, the two weight matrices W1, W2 and the two bias rows, the body stores, at
  (p, o), the sum over the 2048 hidden units c of h(p, c) * W2(c, o), plus the second bias at o, where h(p, c) is the
  logistic function of (the sum over the 4096 columns k of x(p, k) * W1(k, c), plus the first bias at c). The two
  matrix products start from zero accumulators, so each is just its sum; the changes of float format are the identity
  on extended reals; a bias row is repeated down the 512 rows.
-/
import proofs.«410486_j25074019074664_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-! ## Which entries the two matrix products multiply -/

theorem lhs1_0 (j : S512x2048.Idx) (k : dot_S512x4096_S4096x2048_S512x2048_1_0_0_1_n_n.contr.Idx) :
    (dot_S512x4096_S4096x2048_S512x2048_1_0_0_1_n_n.lhsIdx j k 0 : ℕ) = j 0 := by
  simp [DotDims.lhsIdx, dot_S512x4096_S4096x2048_S512x2048_1_0_0_1_n_n]; rfl
theorem lhs1_1 (j : S512x2048.Idx) (k : dot_S512x4096_S4096x2048_S512x2048_1_0_0_1_n_n.contr.Idx) :
    (dot_S512x4096_S4096x2048_S512x2048_1_0_0_1_n_n.lhsIdx j k 1 : ℕ) = k ⟨0, by decide⟩ := by
  simp [DotDims.lhsIdx, dot_S512x4096_S4096x2048_S512x2048_1_0_0_1_n_n]; rfl
theorem rhs1_0 (j : S512x2048.Idx) (k : dot_S512x4096_S4096x2048_S512x2048_1_0_0_1_n_n.contr.Idx) :
    (dot_S512x4096_S4096x2048_S512x2048_1_0_0_1_n_n.rhsIdx j k 0 : ℕ) = k ⟨0, by decide⟩ := by
  simp [DotDims.rhsIdx, dot_S512x4096_S4096x2048_S512x2048_1_0_0_1_n_n]; rfl
theorem rhs1_1 (j : S512x2048.Idx) (k : dot_S512x4096_S4096x2048_S512x2048_1_0_0_1_n_n.contr.Idx) :
    (dot_S512x4096_S4096x2048_S512x2048_1_0_0_1_n_n.rhsIdx j k 1 : ℕ) = j 1 := by
  simp [DotDims.rhsIdx, dot_S512x4096_S4096x2048_S512x2048_1_0_0_1_n_n]; rfl

theorem lhs2_0 (j : S512x512.Idx) (k : dot_S512x2048_S2048x512_S512x512_1_0_0_1_n_n.contr.Idx) :
    (dot_S512x2048_S2048x512_S512x512_1_0_0_1_n_n.lhsIdx j k 0 : ℕ) = j 0 := by
  simp [DotDims.lhsIdx, dot_S512x2048_S2048x512_S512x512_1_0_0_1_n_n]; rfl
theorem lhs2_1 (j : S512x512.Idx) (k : dot_S512x2048_S2048x512_S512x512_1_0_0_1_n_n.contr.Idx) :
    (dot_S512x2048_S2048x512_S512x512_1_0_0_1_n_n.lhsIdx j k 1 : ℕ) = k ⟨0, by decide⟩ := by
  simp [DotDims.lhsIdx, dot_S512x2048_S2048x512_S512x512_1_0_0_1_n_n]; rfl
theorem rhs2_0 (j : S512x512.Idx) (k : dot_S512x2048_S2048x512_S512x512_1_0_0_1_n_n.contr.Idx) :
    (dot_S512x2048_S2048x512_S512x512_1_0_0_1_n_n.rhsIdx j k 0 : ℕ) = k ⟨0, by decide⟩ := by
  simp [DotDims.rhsIdx, dot_S512x2048_S2048x512_S512x512_1_0_0_1_n_n]; rfl
theorem rhs2_1 (j : S512x512.Idx) (k : dot_S512x2048_S2048x512_S512x512_1_0_0_1_n_n.contr.Idx) :
    (dot_S512x2048_S2048x512_S512x512_1_0_0_1_n_n.rhsIdx j k 1 : ℕ) = j 1 := by
  simp [DotDims.rhsIdx, dot_S512x2048_S2048x512_S512x512_1_0_0_1_n_n]; rfl

/-- The first product from a zero accumulator, at (p, c): row p of the left operand against column c of the right. -/
theorem mm1_apply (l : FVec Ideal S512x4096 .bf16) (r : FVec Ideal S4096x2048 .bf16) (p : Fin 512) (c : Fin 2048) :
    matmul dot_S512x4096_S4096x2048_S512x2048_1_0_0_1_n_n none l r (constant S512x2048 .f32 0x00000000#32) (ix2 p c)
      = ∑ k : Fin 4096, l (ix2 p k) * r (ix2 k c) := by
  refine (Ideal.matmul_constant_zero_apply dot_S512x4096_S4096x2048_S512x2048_1_0_0_1_n_n none l r (ix2 p c)).trans ?_
  rw [← Equiv.sum_comp (contrEquiv1 dot_S512x4096_S4096x2048_S512x2048_1_0_0_1_n_n 4096 rfl rfl).symm]
  refine Finset.sum_congr rfl fun k _ => ?_
  congr 2
  · apply Shape.idx_ext₂
    · exact lhs1_0 _ _
    · exact (lhs1_1 _ _).trans (contrEquiv1_symm_val _ _ _ _ k)
  · apply Shape.idx_ext₂
    · exact (rhs1_0 _ _).trans (contrEquiv1_symm_val _ _ _ _ k)
    · exact rhs1_1 _ _

/-- The second product from a zero accumulator, at (p, o). -/
theorem mm2_apply (l : FVec Ideal S512x2048 .bf16) (r : FVec Ideal S2048x512 .bf16) (p : Fin 512) (o : Fin 512) :
    matmul dot_S512x2048_S2048x512_S512x512_1_0_0_1_n_n none l r (constant S512x512 .f32 0x00000000#32) (ix2 p o)
      = ∑ c : Fin 2048, l (ix2 p c) * r (ix2 c o) := by
  refine (Ideal.matmul_constant_zero_apply dot_S512x2048_S2048x512_S512x512_1_0_0_1_n_n none l r (ix2 p o)).trans ?_
  rw [← Equiv.sum_comp (contrEquiv1 dot_S512x2048_S2048x512_S512x512_1_0_0_1_n_n 2048 rfl rfl).symm]
  refine Finset.sum_congr rfl fun k _ => ?_
  congr 2
  · apply Shape.idx_ext₂
    · exact lhs2_0 _ _
    · exact (lhs2_1 _ _).trans (contrEquiv1_symm_val _ _ _ _ k)
  · apply Shape.idx_ext₂
    · exact (rhs2_0 _ _).trans (contrEquiv1_symm_val _ _ _ _ k)
    · exact rhs2_1 _ _

/-! ## A bias row repeated down the rows -/

theorem brow1_apply (v : FVec Ideal S1x2048 .f32) (p : Fin 512) (c : Fin 2048) :
    broadcastTo S512x2048 v broadcasts_S1x2048_S512x2048 (ix2 p c) = v (ix2 (0 : Fin 1) c) :=
  broadcastTo_apply v broadcasts_S1x2048_S512x2048 (ix2 p c) (ix2 (0 : Fin 1) c) (fun a => match a with
    | ⟨0, _⟩ => by show (0 : ℕ) = if (1 : ℕ) = 1 then 0 else _; rw [if_pos rfl]
    | ⟨1, _⟩ => by show c.val = if (2048 : ℕ) = 1 then 0 else c.val; rw [if_neg (by decide)])

theorem brow2_apply (v : FVec Ideal S1x512 .f32) (p : Fin 512) (o : Fin 512) :
    broadcastTo S512x512 v broadcasts_S1x512_S512x512 (ix2 p o) = v (ix2 (0 : Fin 1) o) :=
  broadcastTo_apply v broadcasts_S1x512_S512x512 (ix2 p o) (ix2 (0 : Fin 1) o) (fun a => match a with
    | ⟨0, _⟩ => by show (0 : ℕ) = if (1 : ℕ) = 1 then 0 else _; rw [if_pos rfl]
    | ⟨1, _⟩ => by show o.val = if (512 : ℕ) = 1 then 0 else o.val; rw [if_neg (by decide)])

/-! ## The stored value -/

/-- The hidden layer before the logistic function, at (p, c). -/
theorem hidden_apply (x0 : FVec Ideal S512x4096 .f32) (x1 : FVec Ideal S4096x2048 .bf16) (x2 : FVec Ideal S1x2048 .f32)
    (p : Fin 512) (c : Fin 2048) :
    addf (matmul dot_S512x4096_S4096x2048_S512x2048_1_0_0_1_n_n none (truncf .bf16 x0 bitsLt_bf16_f32) x1 (constant S512x2048 .f32 0x00000000#32))
      (broadcastTo S512x2048 x2 broadcasts_S1x2048_S512x2048) (ix2 p c)
      = (∑ k : Fin 4096, x0 (ix2 p k) * x1 (ix2 k c)) + x2 (ix2 (0 : Fin 1) c) := by
  rw [addf_apply, mm1_apply, brow1_apply]
  rfl

/-- THE STORED VALUE AT (p, o). -/
theorem pay_apply (x0 : FVec Ideal S512x4096 .f32) (x1 : FVec Ideal S4096x2048 .bf16) (x2 : FVec Ideal S1x2048 .f32)
    (x3 : FVec Ideal S2048x512 .bf16) (x4 : FVec Ideal S1x512 .f32) (p : Fin 512) (o : Fin 512) :
    k0_pay1 (F := Ideal) x0 x1 x2 x3 x4 (ix2 p o)
      = (∑ c : Fin 2048, Ideal.logistic ((∑ k : Fin 4096, x0 (ix2 p k) * x1 (ix2 k c)) + x2 (ix2 (0 : Fin 1) c))
          * x3 (ix2 c o)) + x4 (ix2 (0 : Fin 1) o) := by
  show addf (matmul dot_S512x2048_S2048x512_S512x512_1_0_0_1_n_n none
      (truncf .bf16 (logistic (addf (matmul dot_S512x4096_S4096x2048_S512x2048_1_0_0_1_n_n none (truncf .bf16 x0 bitsLt_bf16_f32)
        (shapeCast S4096x2048 x1 shapeCasts_S4096x2048_S4096x2048) (constant S512x2048 .f32 0x00000000#32))
        (broadcastTo S512x2048 (shapeCast S1x2048 x2 shapeCasts_S1x2048_S1x2048) broadcasts_S1x2048_S512x2048)))
        bitsLt_bf16_f32)
      (shapeCast S2048x512 x3 shapeCasts_S2048x512_S2048x512) (constant S512x512 .f32 0x00000000#32))
    (broadcastTo S512x512 (shapeCast S1x512 x4 shapeCasts_S1x512_S1x512) broadcasts_S1x512_S512x512) (ix2 p o) = _
  simp only [shapeCast_self]
  rw [addf_apply, mm2_apply, brow2_apply]
  refine congrArg (· + x4 (ix2 (0 : Fin 1) o)) (Finset.sum_congr rfl fun c _ => ?_)
  refine congrArg (· * x3 (ix2 c o)) ?_
  exact congrArg Ideal.logistic (hidden_apply x0 x1 x2 p c)

end Cert.KernelIdeal.KPay

end
-- ==== Proof.KernelValue.lean ====
/-
  THE KERNEL COMPUTES THE NETWORK IN ITS DENSE FORM.

  The launch has 16 grid points. Point t reads rows 512 t to 512 t + 511 of the input, the two weight matrices and the
  two bias rows whole, and writes rows 512 t to 512 t + 511 of the result. What it writes at row p, unit o of its block
  is the body's stored value (Proof/KernelPayload.lean) of those blocks, and with the host-built arrays read at an
  index (Proof/KernelHost.lean) that is the dense form of the network at row 512 t + p, unit o. Every row of the result
  lies in exactly the block of the point its row number divided by 512 names, so the blocks cover the array and the
  array ends holding the dense form everywhere.
-/
import proofs.«410486_j25074019074664_3_alg».proof.Proof.Gen.KernelIdeal.Value
import proofs.«410486_j25074019074664_3_alg».proof.Proof.Spec
import proofs.«410486_j25074019074664_3_alg».proof.Proof.KernelHost
import proofs.«410486_j25074019074664_3_alg».proof.Proof.KernelPayload
import Idealize.ShloMosaic.Lib.ValueIdx
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.SparseNet
open Idealize.ShloMosaic.Pipeline (Dat)

variable (m : (ℓ : Loc nD τ sig) → Buf (Elt Ideal) ℓ) (ρ : Dev nD → PrngReg)

/-- The network's dense form of the kernel's argument arrays on device c. -/
def G (c : Dev nD) : S8192x512.Idx → EReal :=
  netDense (m ((c : Thread nD τ).loc main_arg0)) (m ((c : Thread nD τ).loc main_arg1)) (m ((c : Thread nD τ).loc main_arg2)) (m ((c : Thread nD τ).loc main_arg3)) (m ((c : Thread nD τ).loc main_arg4))
    (flatOf 2048 (m ((c : Thread nD τ).loc main_arg6)) (m ((c : Thread nD τ).loc main_arg5))) (flatOf 512 (m ((c : Thread nD τ).loc main_arg8)) (m ((c : Thread nD τ).loc main_arg7)))

theorem hz : (![0, 0] : Fin 2 → Nat) = fun _ => 0 := funext fun a => by fin_cases a <;> rfl

/-- Where each window's block sits at point t: the input's and the result's at block row t, the weights and biases at
    the one block they have. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row 512 t + p of the input exists. -/
theorem row_lt (t : Fin cfg0.N) (p : Fin 512) : t.val * 512 + p.val < 8192 := by
  have ht : t.val < 16 := t.isLt
  have := p.isLt
  omega

/-! ## The blocks point t reads -/

/-- The input's block at point t, at (p, k), is the input at row 512 t + p, column k. -/
theorem xblk_apply (c : Dev nD) (t : Fin cfg0.N) (p : Fin 512) (k : Fin 4096) :
    iblk m c 0 t (ix2 p k) = (m ((c : Thread nD τ).loc main_arg0)) (ix2 (⟨t.val * 512 + p.val, row_lt t p⟩ : Fin 8192) k) := by
  obtain ⟨e0, e1, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 512 + 1 * p.val = t.val * 512 + p.val; omega
  | ⟨1, _⟩ => show win0_0.index t (1 : Fin 2) * 4096 + 1 * k.val = k.val; omega

/-- The first weight matrix's block at any point is the whole matrix: the dense weight of layer 1. -/
theorem w1blk_apply (c : Dev nD) (t : Fin cfg0.N) (k : Fin 4096) (o : Fin 2048) :
    iblk m c 1 t (ix2 k o)
      = denseW (K := 4096) (O := 2048) (m ((c : Thread nD τ).loc main_arg1)) (flatOf 2048 (m ((c : Thread nD τ).loc main_arg6)) (m ((c : Thread nD τ).loc main_arg5))) k o := by
  obtain ⟨-, -, e0, e1, -⟩ := idx_facts t
  show V m c main_v14 (((cfg0.win 1).blk t).view.emb (ix2 k o)) = _
  rw [KHost.V_w1, ← KHost.w1term_apply]
  congr 1
  funext a; apply Fin.ext
  match a with
  | ⟨0, _⟩ => show win0_1.index t (0 : Fin 2) * 4096 + 1 * k.val = k.val; omega
  | ⟨1, _⟩ => show win0_1.index t (1 : Fin 2) * 2048 + 1 * o.val = o.val; omega

/-- The first bias row's block at any point, at (0, o), is the first bias at o. -/
theorem b1blk_apply (c : Dev nD) (t : Fin cfg0.N) (o : Fin 2048) :
    iblk m c 2 t (ix2 (0 : Fin 1) o) = (m ((c : Thread nD τ).loc main_arg2)) (ix1 o) := by
  obtain ⟨-, -, -, -, e0, e1, -⟩ := idx_facts t
  show V m c main_v16 (((cfg0.win 2).blk t).view.emb (ix2 (0 : Fin 1) o)) = _
  rw [KHost.V_b1, ← KHost.bias1_apply (m ((c : Thread nD τ).loc main_arg2)) (0 : Fin 1) o]
  congr 1
  funext a; apply Fin.ext
  match a with
  | ⟨0, _⟩ => show win0_2.index t (0 : Fin 2) * 1 + 1 * 0 = 0; omega
  | ⟨1, _⟩ => show win0_2.index t (1 : Fin 2) * 2048 + 1 * o.val = o.val; omega

/-- The second weight matrix's block at any point is the whole matrix: the dense weight of layer 2. -/
theorem w2blk_apply (c : Dev nD) (t : Fin cfg0.N) (k : Fin 2048) (o : Fin 512) :
    iblk m c 3 t (ix2 k o)
      = denseW (K := 2048) (O := 512) (m ((c : Thread nD τ).loc main_arg3)) (flatOf 512 (m ((c : Thread nD τ).loc main_arg8)) (m ((c : Thread nD τ).loc main_arg7))) k o := by
  obtain ⟨-, -, -, -, -, -, e0, e1, -⟩ := idx_facts t
  show V m c main_v15 (((cfg0.win 3).blk t).view.emb (ix2 k o)) = _
  rw [KHost.V_w2, ← KHost.w2term_apply]
  congr 1
  funext a; apply Fin.ext
  match a with
  | ⟨0, _⟩ => show win0_3.index t (0 : Fin 2) * 2048 + 1 * k.val = k.val; omega
  | ⟨1, _⟩ => show win0_3.index t (1 : Fin 2) * 512 + 1 * o.val = o.val; omega

/-- The second bias row's block at any point, at (0, o), is the second bias at o. -/
theorem b2blk_apply (c : Dev nD) (t : Fin cfg0.N) (o : Fin 512) :
    iblk m c 4 t (ix2 (0 : Fin 1) o) = (m ((c : Thread nD τ).loc main_arg4)) (ix1 o) := by
  obtain ⟨-, -, -, -, -, -, -, -, e0, e1, -⟩ := idx_facts t
  show V m c main_v17 (((cfg0.win 4).blk t).view.emb (ix2 (0 : Fin 1) o)) = _
  rw [KHost.V_b2, ← KHost.bias2_apply (m ((c : Thread nD τ).loc main_arg4)) (0 : Fin 1) o]
  congr 1
  funext a; apply Fin.ext
  match a with
  | ⟨0, _⟩ => show win0_4.index t (0 : Fin 2) * 1 + 1 * 0 = 0; omega
  | ⟨1, _⟩ => show win0_4.index t (1 : Fin 2) * 512 + 1 * o.val = o.val; omega

/-- The result's block at point t, at (p, o), sits at row 512 t + p, unit o of the result. -/
theorem oblk_emb (t : Fin cfg0.N) (p o : Fin 512) :
    ((cfg0.win 5).blk t).view.emb (ix2 p o) = ix2 (⟨t.val * 512 + p.val, row_lt t p⟩ : Fin 8192) o := by
  obtain ⟨-, -, -, -, -, -, -, -, -, -, e0, e1⟩ := idx_facts t
  funext a; apply Fin.ext
  match a with
  | ⟨0, _⟩ => show win0_5.index t (0 : Fin 2) * 512 + 1 * p.val = t.val * 512 + p.val; omega
  | ⟨1, _⟩ => show win0_5.index t (1 : Fin 2) * 512 + 1 * o.val = o.val; omega

/-! ## What point t writes back, the cover, the array -/

/-- WHAT POINT t WRITES BACK is block t of the network's dense form. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz]
  simp only [View.ld_unit_zero (S := S512x4096) hz, View.ld_unit_zero (S := S4096x2048) hz,
    View.ld_unit_zero (S := S1x2048) hz, View.ld_unit_zero (S := S2048x512) hz, View.ld_unit_zero (S := S1x512) hz]
  funext j
  obtain ⟨p, o, rfl⟩ : ∃ (p : Fin 512) (o : Fin 512), j = ix2 p o := ⟨j 0, j 1, eq_ix2 j⟩
  show k0_pay1 (F := Ideal) (iblk m c 0 t) (iblk m c 1 t) (iblk m c 2 t) (iblk m c 3 t) (iblk m c 4 t) (ix2 p o)
    = G m c (((cfg0.win 5).blk t).view.emb (ix2 p o))
  refine (KPay.pay_apply (iblk m c 0 t) (iblk m c 1 t) (iblk m c 2 t) (iblk m c 3 t) (iblk m c 4 t) p o).trans ?_
  rw [oblk_emb, b2blk_apply]
  simp only [xblk_apply, w1blk_apply, b1blk_apply, w2blk_apply]
  rfl

/-- An index of the result is in point t's block iff each coordinate is in the block's range on its axis. -/
theorem mem_blk (t : Fin cfg0.N) (i : S8192x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v18).slice (win0_5.rect t)).set ↔ _
  rw [View.set_slice_whole, Rect.mem_set_unit]
  exact Iff.rfl

/-- Every index of the result is in the block of the point its row number divided by 512 names. -/
theorem cover (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  let t : Fin cfg0.N := ⟨(i 0).val / 512, by show (i 0).val / 512 < 16; omega⟩
  obtain ⟨-, -, -, -, -, -, -, -, -, -, e0, e1⟩ := idx_facts t
  have ht : t.val = (i 0).val / 512 := rfl
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

/-- THE RESULT ARRAY after the run is the network's dense form of the argument arrays. -/
theorem final (c : Dev nD) : (dats m 0 c).arrAt 5 cfg0.N = G m c :=
  (dats m 0 c).arrAt_eq_of_cover 5 (G m c) (fun t _ => flushed_eq m c t) cover

/-- The kernel's run ends with the result array at the network's dense form of the argument arrays, the arguments
    unchanged. -/
theorem run : θ_run defs (onTc (τ := τ) (main (F := Ideal))) ⟨m, fun _ => 0, ρ⟩ fun r => ∀ c : Dev nD,
      r.2.mem ((c : Thread nD τ).loc main_v18)
        = netDense (m ((c : Thread nD τ).loc main_arg0)) (m ((c : Thread nD τ).loc main_arg1))
            (m ((c : Thread nD τ).loc main_arg2)) (m ((c : Thread nD τ).loc main_arg3))
            (m ((c : Thread nD τ).loc main_arg4))
            (flatOf 2048 (m ((c : Thread nD τ).loc main_arg6)) (m ((c : Thread nD τ).loc main_arg5)))
            (flatOf 512 (m ((c : Thread nD τ).loc main_arg8)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KValue

end
-- ==== Proof.lean ====
/-
  The kernel densifies each sparse layer into a weight matrix by one flat scatter-add and runs two matrix products
  with the logistic function between them; the reference gathers the source column of every edge, multiplies by the
  edge weight and scatter-adds into the target unit. On real inputs with every edge word in range the two are the same
  function of the arguments (Proof/Algebra.lean): the kernel's run ends at the dense form (Proof/KernelValue.lean), the
  reference's at the edge form (Proof/RefValue.lean), and the precondition gives the real entries and the ranges
  (Proof/PreFacts.lean). The three frames are the generated ones; the reference's is its generated run with the result
  dropped. Nothing was rewritten by the idealization, so the preservation claim is empty.
-/
import proofs.«410486_j25074019074664_3_alg».proof.Defs
import proofs.«410486_j25074019074664_3_alg».proof.Proof.Gen.Kernel
import proofs.«410486_j25074019074664_3_alg».proof.Proof.Gen.Kernel.Skeleton
import proofs.«410486_j25074019074664_3_alg».proof.Proof.Gen.Kernel.Launch
import proofs.«410486_j25074019074664_3_alg».proof.Proof.Gen.Kernel.Points
import proofs.«410486_j25074019074664_3_alg».proof.Proof.Gen.Kernel.Frame
import proofs.«410486_j25074019074664_3_alg».proof.Proof.Gen.KernelIdeal
import proofs.«410486_j25074019074664_3_alg».proof.Proof.Gen.KernelIdeal.Skeleton
import proofs.«410486_j25074019074664_3_alg».proof.Proof.Gen.KernelIdeal.Launch
import proofs.«410486_j25074019074664_3_alg».proof.Proof.Gen.KernelIdeal.Points
import proofs.«410486_j25074019074664_3_alg».proof.Proof.Gen.KernelIdeal.Frame
import proofs.«410486_j25074019074664_3_alg».proof.Proof.Gen.ReferenceIdeal
import proofs.«410486_j25074019074664_3_alg».proof.Proof.Gen.Pre_finite_inputs
import proofs.«410486_j25074019074664_3_alg».proof.Proof.Gen.KernelIdeal.Value
import proofs.«410486_j25074019074664_3_alg».proof.Proof.Gen.ReferenceIdeal.Run
import proofs.«410486_j25074019074664_3_alg».proof.Proof.Gen.ReferenceIdeal.Read
import proofs.«410486_j25074019074664_3_alg».proof.Proof.Spec
import proofs.«410486_j25074019074664_3_alg».proof.Proof.Algebra
import proofs.«410486_j25074019074664_3_alg».proof.Proof.PreFacts
import proofs.«410486_j25074019074664_3_alg».proof.Proof.RefValue
import proofs.«410486_j25074019074664_3_alg».proof.Proof.KernelValue
import Idealize.ShloMosaic.Adequacy
import Idealize.ShloMosaic.Init

noncomputable section

namespace Cert.Proof

open Idealize.ShloMosaic Idealize.SL.Sem Cert.SparseNet

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the network's edge form of the kernel's arguments: the kernel's through the dense form, equal to
    it on the precondition's real entries and in-range edge words; the reference's directly, its arguments being the
    kernel's. -/
theorem algebraic : Cert.algebraic_KernelIdeal_ReferenceIdeal := by
  intro m ρ m' ρ' hpre hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.KValue.run m ρ)
    obtain ⟨hx, hw1, hb1, hw2, _, hr1, hc1, hr2, hc2⟩ := Cert.PreFacts.facts_of_pre _ _ _ _ _ _ _ _ _ (hpre c)
    exact netDense_eq_net _ _ _ _ _ _ _ _ _ hx hw1 hb1 hw2 hr1 hc1 hr2 hc2
  · refine (θ_run Cert.ReferenceIdeal.defs _ _).mono (fun r h c => ⟨?_, (h c).2⟩)
      (Cert.ReferenceIdeal.Value.run (F := Ideal) m' ρ')
    obtain ⟨_, _, _, _, _, _, hc1, _, hc2⟩ := Cert.PreFacts.facts_of_pre _ _ _ _ _ _ _ _ _ (hpre c)
    obtain ⟨e0, e1, e2, e3, e4, e5, e6, e7, e8⟩ := hagree c
    rw [(h c).1, Cert.ReferenceIdeal.Read.val_main_v41_eq, e0, e1, e2, e3, e4, e5, e6, e7, e8]
    exact Cert.ReferenceIdeal.RefValue.ref_eq _ _ _ _ _ _ _ _ _ (fun e => (hc1 e).1) (fun e => (hc2 e).1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
